-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x128x4096 .f32) (main_arg1 : IVec S11008x4096 32) (main_arg2 : FVec F S11008x1 .f32) (main_arg3 : FVec F S11008 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S512x4096 : Shape := ⟨2, ![512, 4096]⟩
abbrev S1x11008 : Shape := ⟨2, ![1, 11008]⟩
abbrev S512x11008 : Shape := ⟨2, ![512, 11008]⟩
abbrev S256x4096 : Shape := ⟨2, ![256, 4096]⟩
abbrev S256x1 : Shape := ⟨2, ![256, 1]⟩
abbrev S1x256 : Shape := ⟨2, ![1, 256]⟩
abbrev S512x256 : Shape := ⟨2, ![512, 256]⟩
abbrev S4x128x11008 : Shape := ⟨3, ![4, 128, 11008]⟩

abbrev nBuf : Space → Nat
  | .hbm => 8
  | .vmem => 9
  | .smem => 0
  | _ => 0

abbrev bufTy : (tb : Table) → Fin (tcTables nBuf tb) → BufTy
  | .hbm, ⟨0, _⟩ => ⟨S4x128x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S512x4096, .f32⟩
  | .hbm, ⟨5, _⟩ => ⟨S1x11008, .f32⟩
  | .hbm, ⟨6, _⟩ => ⟨S512x11008, .f32⟩
  | .hbm, ⟨7, _⟩ => ⟨S4x128x11008, .f32⟩
  | .local _ .vmem, ⟨0, _⟩ => ⟨S512x4096, .f32⟩
  | .local _ .vmem, ⟨1, _⟩ => ⟨S256x4096, .i32⟩
  | .local _ .vmem, ⟨2, _⟩ => ⟨S256x4096, .i32⟩
  | .local _ .vmem, ⟨3, _⟩ => ⟨S256x1, .f32⟩
  | .local _ .vmem, ⟨4, _⟩ => ⟨S256x1, .f32⟩
  | .local _ .vmem, ⟨5, _⟩ => ⟨S1x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x128x4096_S512x4096 : S4x128x4096.ShapeCasts S512x4096
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x11008_S4x128x11008 : S512x11008.ShapeCasts S4x128x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x11008.size a
  hwx0_4 : ∀ i : grid0.Coords, EltTy.bits .f32 = 32 ∨ (Rect.block (s := S512x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩
abbrev S4x128x11008 : Shape := ⟨3, ![4, 128, 11008]⟩
abbrev S1x1x11008 : Shape := ⟨3, ![1, 1, 11008]⟩

abbrev nBuf : Space → Nat
  | .hbm => 14
  | .vmem => 0
  | .smem => 0
  | _ => 0

abbrev bufTy : (tb : Table) → Fin (tcTables nBuf tb) → BufTy
  | .hbm, ⟨0, _⟩ => ⟨S4x128x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S4x128x11008, .f32⟩
  | .hbm, ⟨11, _⟩ => ⟨S1x1x11008, .f32⟩
  | .hbm, ⟨12, _⟩ => ⟨S4x128x11008, .f32⟩
  | .hbm, ⟨13, _⟩ => ⟨S4x128x11008, .f32⟩
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x128x11008_0_1_2 : S1x1x11008.BroadcastsInDim S4x128x11008 (![0, 1, 2] : Fin 3 → Fin S4x128x11008.rank)
  dot_S4x128x4096_S11008x4096_S4x128x11008_2_1_01_0_n_n_wf : DotDims.WF S4x128x4096 S11008x4096 S4x128x11008 [2] [1] [0, 1] [0] [] []

variable [Facts₀]

def dot_S4x128x4096_S11008x4096_S4x128x11008_2_1_01_0_n_n : DotDims S4x128x4096 S11008x4096 S4x128x11008 where
  lhsContracting := [2]
  rhsContracting := [1]
  lhsNonContracting := [0, 1]
  rhsNonContracting := [0]
  lhsBatch := []
  rhsBatch := []
  wf := dot_S4x128x4096_S11008x4096_S4x128x11008_2_1_01_0_n_n_wf

class Facts : Prop extends Facts₀ where

variable [Facts]
-- ==== Proof.DequantLinear.lean ====
/-
  The mathematics both programs compute: a linear layer whose weight matrix is stored as integers and dequantised
  by a per-row affine map.

  With `q : [11008, 4096]` the integer weights, `sc : [11008, 1]` the per-row scales and `128` the zero point, the
  dequantised weight is `w (o, k) = (q (o, k) − 128) · sc (o, 0)`; the layer is `y (r, o) = Σ_k x (r, k) · w (o, k) + b (o)`,
  the contraction running over the LAST axis of both operands. The activations arrive as `[4, 128, 4096]` and
  the result leaves as `[4, 128, 11008]`; row `r = 128·b + s` of the flattened `[512, ·]` arrays is entry `(b, s)`.

  Here: the element `w`, the flat result `flat` over `[512, 11008]`, the result `layer` over `[4, 128, 11008]`, and
  the one algebraic fact that joins the two programs — the factors of `w` commute on the extended reals — so that
  `layer` may be read with the scale on either side.
-/
import Idealize.ShloMosaic.PureOps.Ideal
import Idealize.ShloMosaic.Lib.ValueIdx

noncomputable section

open scoped BigOperators

namespace Cert.DequantLinear

open Idealize.ShloMosaic Idealize.ShloMosaic.ValueIdx

/-- The zero point `128`, as the float word both programs print. -/
abbrev zeroPoint : EReal := Ideal.ofBits .f32 0x43000000#32

/-- The dequantised weight at row `o`, column `k`: the integer read exactly, less the zero point, times the row's scale. -/
def w (q : (⟨2, ![11008, 4096]⟩ : Shape).Idx → BitVec 32) (sc : (⟨2, ![11008, 1]⟩ : Shape).Idx → EReal)
    (o : Fin 11008) (k : Fin 4096) : EReal :=
  (FloatOps.sitofp (F := Ideal) .f32 (q (ix2 o k)) - zeroPoint) * sc (ix2 o 0)

/-- The same weight with the scale written first: multiplication of extended reals commutes. -/
theorem w_comm (q : (⟨2, ![11008, 4096]⟩ : Shape).Idx → BitVec 32) (sc : (⟨2, ![11008, 1]⟩ : Shape).Idx → EReal)
    (o : Fin 11008) (k : Fin 4096) :
    sc (ix2 o 0) * (FloatOps.sitofp (F := Ideal) .f32 (q (ix2 o k)) - zeroPoint) = w q sc o k :=
  mul_comm _ _

/-- The layer on flattened activations `x : [512, 4096]` with the bias as a row `b : [1, 11008]`. -/
def flat (x : (⟨2, ![512, 4096]⟩ : Shape).Idx → EReal) (q : (⟨2, ![11008, 4096]⟩ : Shape).Idx → BitVec 32)
    (sc : (⟨2, ![11008, 1]⟩ : Shape).Idx → EReal) (b : (⟨2, ![1, 11008]⟩ : Shape).Idx → EReal) :
    (⟨2, ![512, 11008]⟩ : Shape).Idx → EReal :=
  fun i => (∑ k : Fin 4096, x (ix2 (i 0) k) * w q sc (i 1) k) + b (ix2 0 (i 1))

/-- The layer on `x : [4, 128, 4096]` with the bias a vector `b : [11008]`. -/
def layer (x : (⟨3, ![4, 128, 4096]⟩ : Shape).Idx → EReal) (q : (⟨2, ![11008, 4096]⟩ : Shape).Idx → BitVec 32)
    (sc : (⟨2, ![11008, 1]⟩ : Shape).Idx → EReal) (b : (⟨1, ![11008]⟩ : Shape).Idx → EReal) :
    (⟨3, ![4, 128, 11008]⟩ : Shape).Idx → EReal :=
  fun i => (∑ k : Fin 4096, x (ix3 (i 0) (i 1) k) * w q sc (i 2) k) + b (ix1 (i 2))

end Cert.DequantLinear

end
-- ==== Proof.KernelBlock.lean ====
/-
  One block of the layer, read element by element.

  At a grid point the body holds the whole activation matrix `x : [512, 4096]`, 256 rows of integer weights
  `q : [256, 4096]`, their scales `s : [256, 1]` and their biases `b : [1, 256]`, and writes the `[512, 256]` block
  `x · wᵀ + b` with `w (j, k) = (q (j, k) − 128) · s (j, 0)`. The two narrowings to bf16 are the identity on extended
  reals, the matrix product into a zero accumulator is the plain sum over the contracted axis, and that axis is
  the LAST one of both operands, so element `(p, j)` of the block is `Σ_k x (p, k) · w (j, k) + b (0, j)`.
-/
import proofs.«154330_j28484223107806_1_alg».proof.Proof.Gen.KernelIdeal.Skeleton
import proofs.«154330_j28484223107806_1_alg».proof.Proof.DequantLinear
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The product's operand indices: both operands are contracted on their second axis -/

/-- The left operand's row is the output's row. -/
theorem lhs_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
/-- The left operand's column is the contraction coordinate. -/
theorem lhs_col (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's ROW is the output's column: the weights are stored one output channel per row. -/
theorem rhs_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
/-- The right operand's column is the contraction coordinate. -/
theorem rhs_col (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The product into the zero accumulator at `i = (p, j)`: the sum over `k` of `l (p, k) · r (j, k)`. -/
theorem product_at (l : FVec Ideal S512x4096 .bf16) (r : FVec Ideal S256x4096 .bf16) (i : S512x256.Idx) :
    matmul dot_S512x4096_S256x4096_S512x256_1_1_0_0_n_n none l r (constant S512x256 .f32 0x00000000#32) i
      = ∑ k : Fin 4096, l (ix2 (i 0) k) * r (ix2 (i 1) k) := by
  refine (Ideal.matmul_constant_zero_apply dot_S512x4096_S256x4096_S512x256_1_1_0_0_n_n none l r i).trans ?_
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx i ((contrEquiv1 dot_S512x4096_S256x4096_S512x256_1_1_0_0_n_n 4096 rfl rfl).symm k) = ix2 (i 0) k :=
    funext fun a => Fin.ext (by
      match a with
      | ⟨0, _⟩ => exact lhs_row _ _
      | ⟨1, _⟩ => exact (lhs_col _ _).trans hk)
  have er : dot_S512x4096_S256x4096_S512x256_1_1_0_0_n_n.rhsIdx i ((contrEquiv1 dot_S512x4096_S256x4096_S512x256_1_1_0_0_n_n 4096 rfl rfl).symm k) = ix2 (i 1) k :=
    funext fun a => Fin.ext (by
      match a with
      | ⟨0, _⟩ => exact rhs_row _ _
      | ⟨1, _⟩ => exact (rhs_col _ _).trans hk)
  rw [el, er]
  rfl

/-! ## The two broadcasts -/

/-- A row's scale, spread along the row. -/
theorem scale_at (s : Vec Ideal S256x1 .f32) (j : Fin 256) (k : Fin 4096) :
    broadcastTo S256x4096 s broadcasts_S256x1_S256x4096 (ix2 j k) = s (ix2 j 0) :=
  broadcastTo_apply s _ (ix2 j k) (ix2 j 0) (fun a => match a with
    | ⟨0, _⟩ => by show j.val = if (256 : Nat) = 1 then 0 else j.val; rw [if_neg (by decide)]
    | ⟨1, _⟩ => by show 0 = if (1 : Nat) = 1 then 0 else k.val; rw [if_pos rfl])

/-- A column's bias, spread down the column. -/
theorem bias_at (b : Vec Ideal S1x256 .f32) (p : Fin 512) (j : Fin 256) :
    broadcastTo S512x256 b broadcasts_S1x256_S512x256 (ix2 p j) = b (ix2 0 j) :=
  broadcastTo_apply b _ (ix2 p j) (ix2 0 j) (fun a => match a with
    | ⟨0, _⟩ => by show 0 = if (1 : Nat) = 1 then 0 else p.val; rw [if_pos rfl]
    | ⟨1, _⟩ => by show j.val = if (256 : Nat) = 1 then 0 else j.val; rw [if_neg (by decide)])

/-! ## The block -/

/-- Element `(p, j)` of what the body stores. -/
theorem block_at (x : Vec Ideal S512x4096 .f32) (q : Vec Ideal S256x4096 .i32) (s : Vec Ideal S256x1 .f32)
    (b : Vec Ideal S1x256 .f32) (p : Fin 512) (j : Fin 256) :
    k0_pay1 (F := Ideal) x q s b (ix2 p j)
      = (∑ k : Fin 4096, x (ix2 p k)
          * ((FloatOps.sitofp (F := Ideal) .f32 (q (ix2 j k)) - Cert.DequantLinear.zeroPoint) * s (ix2 j 0)))
        + b (ix2 0 j) := by
  unfold k0_pay1
  refine (addf_apply _ _ (ix2 p j)).trans ?_
  rw [product_at, bias_at, shapeCast_self, shapeCast_self]
  refine congrArg (· + b (ix2 0 j)) (Finset.sum_congr rfl fun k _ => ?_)
  show x (ix2 p k) * ((FloatOps.sitofp (F := Ideal) .f32 (q (ix2 j k)) - _) * broadcastTo S256x4096 s _ (ix2 j k)) = _
  rw [scale_at]
  rfl

end Cert.KernelIdeal.Block

end
-- ==== Proof.Relayout.lean ====
/-
  Flattening the leading axes commutes with the layer.

  The program around the kernel flattens the activations `[4, 128, 4096] → [512, 4096]`, lifts the bias
  `[11008] → [1, 11008]`, and unflattens the result `[512, 11008] → [4, 128, 11008]`. A re-layout keeps row-major
  positions, so row `128 b + s` of a flat array is entry `(b, s)`, and the flat layer of the flattened arguments,
  unflattened, is the layer of the arguments.
-/
import proofs.«154330_j28484223107806_1_alg».proof.Proof.DequantLinear
import Idealize.ShloMosaic.Lib.Pipeline.Value

noncomputable section

open scoped BigOperators

namespace Cert.DequantLinear

open Idealize.ShloMosaic Idealize.ShloMosaic.ValueIdx

/-- Entry `(b, s)` sits in flat row `128 b + s`. -/
theorem row_lt (b : Fin 4) (s : Fin 128) : b.val * 128 + s.val < 512 := by
  have := b.isLt; have := s.isLt; omega

/-- The flat layer of the flattened activations and the lifted bias, unflattened, is the layer. -/
theorem layer_of_flat (x : (⟨3, ![4, 128, 4096]⟩ : Shape).Idx → EReal) (q : (⟨2, ![11008, 4096]⟩ : Shape).Idx → BitVec 32)
    (sc : (⟨2, ![11008, 1]⟩ : Shape).Idx → EReal) (b : (⟨1, ![11008]⟩ : Shape).Idx → EReal)
    (hx : (⟨3, ![4, 128, 4096]⟩ : Shape).ShapeCasts ⟨2, ![512, 4096]⟩)
    (hb : (⟨1, ![11008]⟩ : Shape).ShapeCasts ⟨2, ![1, 11008]⟩)
    (hy : (⟨2, ![512, 11008]⟩ : Shape).ShapeCasts ⟨3, ![4, 128, 11008]⟩) :
    shapeCast ⟨3, ![4, 128, 11008]⟩ (flat (shapeCast ⟨2, ![512, 4096]⟩ x hx) q sc (shapeCast ⟨2, ![1, 11008]⟩ b hb)) hy
      = layer x q sc b := by
  funext i
  obtain ⟨bb, s, o, rfl⟩ : ∃ (bb : Fin 4) (s : Fin 128) (o : Fin 11008), i = ix3 bb s o := ⟨i 0, i 1, i 2, eq_ix3 i⟩
  rw [shapeCast_apply _ hy (ix3 bb s o) (ix2 ⟨bb.val * 128 + s.val, row_lt bb s⟩ o)
    (by rw [Shape.rowMajor_val_two, Shape.rowMajor_val_three]; rfl)]
  unfold flat layer
  refine congrArg₂ (· + ·) (Finset.sum_congr rfl fun k _ => ?_) ?_
  · show shapeCast ⟨2, ![512, 4096]⟩ x hx (ix2 ⟨bb.val * 128 + s.val, row_lt bb s⟩ k) * w q sc o k = x (ix3 bb s k) * w q sc o k
    rw [shapeCast_apply x hx (ix2 ⟨bb.val * 128 + s.val, row_lt bb s⟩ k) (ix3 bb s k)
      (by rw [Shape.rowMajor_val_two, Shape.rowMajor_val_three]; rfl)]
  · show shapeCast ⟨2, ![1, 11008]⟩ b hb (ix2 0 o) = b (ix1 o)
    rw [shapeCast_apply b hb (ix2 0 o) (ix1 o) (by rw [Shape.rowMajor_val_two, Shape.rowMajor_val_one]; simp)]

end Cert.DequantLinear

end
-- ==== Proof.KernelArray.lean ====
/-
  The kernel's result array.

  The grid has 43 points; point `t` sees the whole activation matrix, weight rows `256 t … 256 t + 255` with
  their scales, the matching 256 biases, and writes columns `256 t … 256 t + 255` of the `[512, 11008]` result.
  Each written block is the restriction of ONE function of the arrays the region finds — `DequantLinear.flat` — and the
  43 column blocks tile the result, so the array ends holding that function. Around the region the program only
  re-lays arrays: the activations `[4, 128, 4096] → [512, 4096]`, the bias `[11008] → [1, 11008]`, and the result
  `[512, 11008] → [4, 128, 11008]`; row `128 b + s` of a flat array is entry `(b, s)`, which makes the final array
  `DequantLinear.layer` of the four arguments.
-/
import proofs.«154330_j28484223107806_1_alg».proof.Proof.Gen.KernelIdeal.Frame
import proofs.«154330_j28484223107806_1_alg».proof.Proof.KernelBlock
import proofs.«154330_j28484223107806_1_alg».proof.Proof.Relayout
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Layer

open Cert.KernelIdeal Cert.KernelIdeal.Gen Idealize.ShloMosaic.ValueIdx Cert.DequantLinear

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`: the activations are never moved, the weights, scales, biases and
    the result all step by one block per point along the output-channel axis. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The arrays the region finds, at their literal types. -/
abbrev X (c : Dev nD) : S512x4096.Idx → EReal := V m c main_v0
abbrev Q (c : Dev nD) : S11008x4096.Idx → BitVec 32 := V m c main_arg1
abbrev Sc (c : Dev nD) : S11008x1.Idx → EReal := V m c main_arg2
abbrev B (c : Dev nD) : S1x11008.Idx → EReal := V m c main_v1

/-! ## Each input block, read in the array -/

theorem blk_x (c : Dev nD) (t : Fin cfg0.N) (p : Fin 512) (k : Fin 4096) :
    (iblk m c 0 t : Vec Ideal S512x4096 .f32) (ix2 p k) = X m c (ix2 p k) := by
  obtain ⟨e00, e01, -⟩ := idx_facts t
  show V m c main_v0 (((cfg0.win 0).blk t).view.emb (ix2 p k)) = V m c main_v0 (ix2 p k)
  refine congrArg (V m c main_v0) (funext fun a => Fin.ext ?_)
  match a with
  | ⟨0, _⟩ => show win0_0.index t (0 : Fin 2) * 512 + 1 * p.val = p.val; omega
  | ⟨1, _⟩ => show win0_0.index t (1 : Fin 2) * 4096 + 1 * k.val = k.val; omega

theorem blk_q (c : Dev nD) (t : Fin cfg0.N) (j : Fin 256) (k : Fin 4096) (o : Fin 11008) (ho : o.val = t.val * 256 + j.val) :
    (iblk m c 1 t : Vec Ideal S256x4096 .i32) (ix2 j k) = Q m c (ix2 o k) := by
  obtain ⟨-, -, e10, e11, -⟩ := idx_facts t
  show V m c main_arg1 (((cfg0.win 1).blk t).view.emb (ix2 j k)) = V m c main_arg1 (ix2 o k)
  refine congrArg (V m c main_arg1) (funext fun a => Fin.ext ?_)
  match a with
  | ⟨0, _⟩ => show win0_1.index t (0 : Fin 2) * 256 + 1 * j.val = o.val; omega
  | ⟨1, _⟩ => show win0_1.index t (1 : Fin 2) * 4096 + 1 * k.val = k.val; omega

theorem blk_s (c : Dev nD) (t : Fin cfg0.N) (j : Fin 256) (o : Fin 11008) (ho : o.val = t.val * 256 + j.val) :
    (iblk m c 2 t : Vec Ideal S256x1 .f32) (ix2 j 0) = Sc m c (ix2 o 0) := by
  obtain ⟨-, -, -, -, e20, e21, -⟩ := idx_facts t
  show V m c main_arg2 (((cfg0.win 2).blk t).view.emb (ix2 j 0)) = V m c main_arg2 (ix2 o 0)
  refine congrArg (V m c main_arg2) (funext fun a => Fin.ext ?_)
  match a with
  | ⟨0, _⟩ => show win0_2.index t (0 : Fin 2) * 256 + 1 * j.val = o.val; omega
  | ⟨1, _⟩ => show win0_2.index t (1 : Fin 2) * 1 + 1 * 0 = 0; omega

theorem blk_b (c : Dev nD) (t : Fin cfg0.N) (j : Fin 256) (o : Fin 11008) (ho : o.val = t.val * 256 + j.val) :
    (iblk m c 3 t : Vec Ideal S1x256 .f32) (ix2 0 j) = B m c (ix2 0 o) := by
  obtain ⟨-, -, -, -, -, -, e30, e31, -⟩ := idx_facts t
  show V m c main_v1 (((cfg0.win 3).blk t).view.emb (ix2 0 j)) = V m c main_v1 (ix2 0 o)
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 256 + 1 * j.val = o.val; omega

/-! ## What a point writes back -/

/-- Point `t` writes block `t` of `flat` of the arrays the region finds. -/
theorem flushed_eq (c : Dev nD) (t : Fin cfg0.N) :
    (dats m 0 c).flushed 4 t = ((cfg0.win 4).blk t).view.read (Elt Ideal) (flat (X m c) (Q m c) (Sc m c) (B m c)) := by
  show (cfg0.win 4).cut (grid0.coords t) ((dats m 0 c).after 4 t) = _
  rw [after0_4]
  unfold out0_4
  rw [View.canon_unit_zero hz]
  simp only [View.ld_unit_zero (S := S512x4096) hz, View.ld_unit_zero (S := S256x4096) hz,
    View.ld_unit_zero (S := S256x1) hz, View.ld_unit_zero (S := S1x256) hz]
  obtain ⟨-, -, -, -, -, -, -, -, e40, e41⟩ := idx_facts t
  funext y
  obtain ⟨p, j, rfl⟩ : ∃ (p : Fin 512) (j : Fin 256), y = ix2 p j := ⟨y 0, y 1, eq_ix2 y⟩
  have ht : t.val < 43 := lt_of_lt_of_eq t.isLt N_0
  have hp : win0_4.index t (0 : Fin 2) * 512 + 1 * p.val < 512 := by have := p.isLt; omega
  have hj : win0_4.index t (1 : Fin 2) * 256 + 1 * j.val < 11008 := by have := j.isLt; omega
  show k0_pay1 (F := Ideal) (iblk m c 0 t) (iblk m c 1 t) (iblk m c 2 t) (iblk m c 3 t) (ix2 p j)
    = flat (X m c) (Q m c) (Sc m c) (B m c) (ix2 ⟨win0_4.index t (0 : Fin 2) * 512 + 1 * p.val, hp⟩ ⟨win0_4.index t (1 : Fin 2) * 256 + 1 * j.val, hj⟩)
  refine (Cert.KernelIdeal.Block.block_at (iblk m c 0 t) (iblk m c 1 t) (iblk m c 2 t) (iblk m c 3 t) p j).trans ?_
  unfold flat w
  have ho : (⟨win0_4.index t (1 : Fin 2) * 256 + 1 * j.val, hj⟩ : Fin 11008).val = t.val * 256 + j.val := by
    show win0_4.index t (1 : Fin 2) * 256 + 1 * j.val = _; omega
  have hp' : (⟨win0_4.index t (0 : Fin 2) * 512 + 1 * p.val, hp⟩ : Fin 512) = p := Fin.ext (by
    show win0_4.index t (0 : Fin 2) * 512 + 1 * p.val = _; omega)
  refine congrArg₂ (· + ·) (Finset.sum_congr rfl fun k _ => ?_) (blk_b m c t j _ ho)
  show _ = X m c (ix2 (⟨win0_4.index t (0 : Fin 2) * 512 + 1 * p.val, hp⟩ : Fin 512) k) * _
  rw [hp', blk_x m c t p k, blk_q m c t j k _ ho, blk_s m c t j _ ho]

/-! ## The blocks tile the result -/

/-- An index is in point `t`'s block iff each coordinate is in the block's range. -/
theorem mem_blk (t : Fin cfg0.N) (i : S512x11008.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v2).slice (win0_4.rect t)).set ↔ _
  rw [View.set_slice_whole, Rect.mem_set_unit]
  exact Iff.rfl

/-- Column `o` is written by point `o / 256`. -/
theorem cover (i : S512x11008.Idx) :
    ∃ t : Fin cfg0.N, (cfg0.win 4).flush t = true ∧ i ∈ ((cfg0.win 4).blk t).view.set := by
  have h0 : (i 0).val < 512 := (i 0).isLt
  have h1 : (i 1).val < 11008 := (i 1).isLt
  have hN : cfg0.N = 43 := N_0
  have ht : (i 1).val / 256 < cfg0.N := by rw [hN]; omega
  obtain ⟨-, -, -, -, -, -, -, -, e40, e41⟩ := idx_facts ⟨(i 1).val / 256, ht⟩
  have e41' : win0_4.index ⟨(i 1).val / 256, ht⟩ (1 : Fin 2) = (i 1).val / 256 := e41
  refine ⟨⟨(i 1).val / 256, ht⟩, flush0_4 _, ?_⟩
  rw [mem_blk]
  intro a
  match a with
  | ⟨0, _⟩ =>
    show win0_4.index ⟨(i 1).val / 256, ht⟩ (0 : Fin 2) * 512 ≤ (i 0).val
      ∧ (i 0).val < win0_4.index ⟨(i 1).val / 256, ht⟩ (0 : Fin 2) * 512 + 512
    omega
  | ⟨1, _⟩ =>
    show win0_4.index ⟨(i 1).val / 256, ht⟩ (1 : Fin 2) * 256 ≤ (i 1).val
      ∧ (i 1).val < win0_4.index ⟨(i 1).val / 256, ht⟩ (1 : Fin 2) * 256 + 256
    omega

/-- The result array after the region: `flat` of the arrays the region finds. -/
theorem final (c : Dev nD) : (dats m 0 c).arrAt 4 cfg0.N = flat (X m c) (Q m c) (Sc m c) (B m c) :=
  (dats m 0 c).arrAt_eq_of_cover 4 (flat (X m c) (Q m c) (Sc m c) (B m c)) (fun t _ => flushed_eq m c t) cover

/-! ## The re-layouts before the region -/

/-- The region finds the activations flattened. -/
theorem X_eq (c : Dev nD) :
    X m c = shapeCast S512x4096 (m ((c : Thread nD τ).loc main_arg0)) shapeCasts_S4x128x4096_S512x4096 := by
  show StableHlo.after hostOps0 (fun b => m (c, b)) (Proc.devRef .tc main_v0) = _
  after_results
  rfl

/-- The region finds the bias as one row. -/
theorem B_eq (c : Dev nD) :
    B m c = shapeCast S1x11008 (m ((c : Thread nD τ).loc main_arg3)) shapeCasts_S11008_S1x11008 := by
  show StableHlo.after hostOps0 (fun b => m (c, b)) (Proc.devRef .tc main_v1) = _
  after_results
  rfl

/-! ## The re-layout after the region, and the run -/

/-- The program's result: the region's array unflattened, which is the layer of the four arguments. -/
theorem result_eq (c : Dev nD) :
    Pipeline.afterTail₀ cfgs (dats m) 0 (V0 m) [hostOps1] c main_v3
      = layer (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = flat (X m c) (Q m c) (Sc m c) (B m c) :=
    (Pipeline.withArrays_arr spec0 launch0.win.arr_inj c _ _ 4).trans (final m c)
  have e : flat (X m c) (Q m c) (Sc m c) (B m c)
      = flat (shapeCast S512x4096 (m ((c : Thread nD τ).loc main_arg0)) shapeCasts_S4x128x4096_S512x4096)
          (m ((c : Thread nD τ).loc main_arg1)) (m ((c : Thread nD τ).loc main_arg2))
          (shapeCast S1x11008 (m ((c : Thread nD τ).loc main_arg3)) shapeCasts_S11008_S1x11008) := by
    rw [X_eq, B_eq]
    show flat _ (V m c main_arg1) (V m c main_arg2) _ = _
    rw [V_main_arg1, V_main_arg2]
  exact (congrArg (fun A => shapeCast S4x128x11008 A shapeCasts_S512x11008_S4x128x11008) (hA.trans e)).trans
    (layer_of_flat _ _ _ _ _ _ _)

/-- Every weakly fair execution of the program ends with the result at the layer of the four arguments, which it
    leaves unchanged. -/
theorem run : θ_run defs (onTc (τ := τ) (main (F := Ideal))) ⟨m, fun _ => 0, ρ⟩ fun r => ∀ c : Dev nD,
      r.2.mem ((c.tc : Thread nD τ).loc main_v3)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Layer

end
-- ==== Proof.ReferenceLayer.lean ====
/-
  The reference computes the layer.

  Its program dequantises the whole weight matrix, `scale · (q − 128)` with the scale written FIRST, contracts the
  activations' last axis against the weights' last axis and adds the bias along the last axis. Read at an index
  `(b, s, o)` that is `Σ_k x (b, s, k) · (sc (o, 0) · (q (o, k) − 128)) + bias (o)`; the factors of the weight commute.
-/
import proofs.«154330_j28484223107806_1_alg».proof.Proof.Gen.ReferenceIdeal.Read
import proofs.«154330_j28484223107806_1_alg».proof.Proof.DequantLinear

noncomputable section

open scoped BigOperators

namespace Cert.ReferenceIdeal.Layer

open Cert.ReferenceIdeal Cert.ReferenceIdeal.Read Idealize.ShloMosaic Idealize.ShloMosaic.ValueIdx

/-- The left operand of the contraction is read at `(b, s, k)`. -/
theorem lidx_eq (i : S4x128x11008.Idx) (k : Fin 4096) : lidx_main_v5 i k = ix3 (i 0) (i 1) k :=
  funext fun a => match a with | ⟨0, _⟩ => rfl | ⟨1, _⟩ => rfl | ⟨2, _⟩ => rfl
/-- The right operand, the dequantised weights, at `(o, k)`. -/
theorem ridx_eq (i : S4x128x11008.Idx) (k : Fin 4096) : ridx_main_v5 i k = ix2 (i 2) k :=
  funext fun a => match a with | ⟨0, _⟩ => rfl | ⟨1, _⟩ => rfl
/-- The scale spread along row `o` is read at `(o, 0)`. -/
theorem sidx_eq (j : S11008x4096.Idx) : idx_main_v3 j = ix2 (j 0) 0 :=
  funext fun a => match a with | ⟨0, _⟩ => rfl | ⟨1, _⟩ => rfl
/-- The bias spread over the leading axes is read at `o`. -/
theorem bidx_eq (i : S4x128x11008.Idx) : idx_main_v6 (idx_main_v7 i) = ix1 (i 2) :=
  funext fun a => match a with | ⟨0, _⟩ => rfl

/-- The reference's result, as a function of its four arguments, is the layer. -/
theorem result_eq (x : (⟨S4x128x4096, .f32⟩ : BufTy).Contents (Elt Ideal)) (q : (⟨S11008x4096, .i32⟩ : BufTy).Contents (Elt Ideal))
    (sc : (⟨S11008x1, .f32⟩ : BufTy).Contents (Elt Ideal)) (bias : (⟨S11008, .f32⟩ : BufTy).Contents (Elt Ideal)) :
    val_main_v8 (F := Ideal) x q sc bias = Cert.DequantLinear.layer x q sc bias := by
  funext i
  rw [val_main_v8_apply, val_main_v5_apply, val_main_v7_apply, val_main_v6_apply]
  unfold Cert.DequantLinear.layer
  rw [bidx_eq]
  refine congrArg (· + bias (ix1 (i 2))) (Finset.sum_congr rfl fun k _ => ?_)
  rw [val_main_v4_apply, val_main_v3_apply, val_main_v2_apply, val_main_v0_apply, val_main_v1_apply, val_main_cst_apply,
    sidx_eq, ridx_eq, lidx_eq]
  exact congrArg (x (ix3 (i 0) (i 1) k) * ·) (Cert.DequantLinear.w_comm q sc (i 2) k)

end Cert.ReferenceIdeal.Layer

end
-- ==== Proof.lean ====
/-
  A linear layer with integer-stored weights, `y = x · wᵀ + bias` with `w (o, k) = (q (o, k) − 128) · scale (o)`,
  as a tiled kernel against its one-line reference, over the extended reals.

  The kernel walks the 11008 output channels in 43 tiles of 256; at each tile it dequantises 256 weight rows,
  contracts them with the whole `[512, 4096]` activation matrix and adds the tile's biases. The reference dequantises
  the whole matrix with the scale written first, contracts the `[4, 128, 4096]` activations with it and adds the bias.
  Both are `DequantLinear.layer` of the four arguments: narrowing to bf16 is the identity on extended reals, a matrix
  product into a zero accumulator is the plain sum, tiling and flattening do not change which terms are summed,
  and the factors of a dequantised weight commute. No finiteness of the inputs is used.

  `KernelArray.lean` reads the kernel's run (blocks, their tiling, the re-layouts around the region),
  `KernelBlock.lean` one block element by element, `ReferenceLayer.lean` the reference's term, `Relayout.lean` the
  flattening, `DequantLinear.lean` states the layer. The three frames are the generated ones; the idealisation
  rewrote nothing, so `preserves` is trivial.
-/
import proofs.«154330_j28484223107806_1_alg».proof.Defs
import proofs.«154330_j28484223107806_1_alg».proof.Proof.Gen.Kernel
import proofs.«154330_j28484223107806_1_alg».proof.Proof.Gen.Kernel.Skeleton
import proofs.«154330_j28484223107806_1_alg».proof.Proof.Gen.Kernel.Launch
import proofs.«154330_j28484223107806_1_alg».proof.Proof.Gen.Kernel.Points
import proofs.«154330_j28484223107806_1_alg».proof.Proof.Gen.Kernel.Frame
import proofs.«154330_j28484223107806_1_alg».proof.Proof.Gen.KernelIdeal
import proofs.«154330_j28484223107806_1_alg».proof.Proof.Gen.KernelIdeal.Skeleton
import proofs.«154330_j28484223107806_1_alg».proof.Proof.Gen.KernelIdeal.Launch
import proofs.«154330_j28484223107806_1_alg».proof.Proof.Gen.KernelIdeal.Points
import proofs.«154330_j28484223107806_1_alg».proof.Proof.Gen.KernelIdeal.Frame
import proofs.«154330_j28484223107806_1_alg».proof.Proof.Gen.ReferenceIdeal
import proofs.«154330_j28484223107806_1_alg».proof.Proof.Gen.Pre_finite_inputs
import proofs.«154330_j28484223107806_1_alg».proof.Proof.Gen.ReferenceIdeal.Run
import proofs.«154330_j28484223107806_1_alg».proof.Proof.Gen.ReferenceIdeal.Read
import proofs.«154330_j28484223107806_1_alg».proof.Proof.KernelArray
import proofs.«154330_j28484223107806_1_alg».proof.Proof.ReferenceLayer
import Idealize.ShloMosaic.Adequacy
import Idealize.ShloMosaic.Init

noncomputable section

namespace Cert.Proof

open Idealize.ShloMosaic Idealize.SL.Sem

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealised programs end with the result at the layer of arguments that agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Layer.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
